-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S50000x32 : Shape := ⟨2, ![50000, 32]⟩
abbrev S2x1600000 : Shape := ⟨2, ![2, 1600000]⟩
abbrev S1600000x48 : Shape := ⟨2, ![1600000, 48]⟩
abbrev S50000 : Shape := ⟨1, ![50000]⟩
abbrev S208x256 : Shape := ⟨2, ![208, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S50000x32 : S_.BroadcastsInDim S50000x32 (![] : Fin 0 → Fin S50000x32.rank)
  reducesTo_S50000x32_S_d0_1 : S50000x32.ReducesTo [0, 1] S_
  bcast_S_S1600000x48 : S_.BroadcastsInDim S1600000x48 (![] : Fin 0 → Fin S1600000x48.rank)
  reducesTo_S1600000x48_S_d0_1 : S1600000x48.ReducesTo [0, 1] S_
  bcast_S_S208x256 : S_.BroadcastsInDim S208x256 (![] : Fin 0 → Fin S208x256.rank)
  reducesTo_S208x256_S_d0_1 : S208x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S208x256 .f32) (main_arg7 : FVec F S256 .f32) (main_arg8 : FVec F S256x64 .f32) (main_arg9 : FVec F S64 .f32) (main_v13 : IVec S_ 1) (main_v16 : IVec S1600000x48 1) : IVec S_ 1 :=
  let main_c_5 : IVec S_ 1 := constantI S_ 1 1#1
  let main_v17 : IVec S_ 1 := (fun x v => Host.reduce IntOp.andi x v reducesTo_S1600000x48_S_d0_1 h_S_) main_v16 main_c_5
  let main_v18 : IVec S_ 1 := andi main_v13 main_v17
  let main_v19 : FVec F S208x256 .f32 := Host.absf main_arg6
  let main_cst_6 : FVec F S_ .f32 := constant S_ .f32 0x7F800000#32
  let main_v20 : FVec F S208x256 .f32 := broadcastInDim S208x256 ![] bcast_S_S208x256 main_cst_6
  let main_v21 : IVec S208x256 1 := cmpf .olt main_v19 main_v20
  let main_c_7 : IVec S_ 1 := constantI S_ 1 1#1
  let main_v22 : IVec S_ 1 := (fun x v => Host.reduce IntOp.andi x v reducesTo_S208x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : FVec F S50000x64 .f32) (main_arg2 : FVec F S50000x32 .f32) (main_arg3 : IVec S2x1600000 32) (main_arg4 : FVec F S1600000x48 .f32) (main_arg5 : IVec S50000 32) (main_arg6 : FVec F S208x256 .f32) (main_arg7 : FVec F S256 .f32) (main_arg8 : FVec F S256x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x32 .f32 := Host.absf main_arg2
  let main_cst_2 : FVec F S_ .f32 := constant S_ .f32 0x7F800000#32
  let main_v10 : FVec F S50000x32 .f32 := broadcastInDim S50000x32 ![] bcast_S_S50000x32 main_cst_2
  let main_v11 : IVec S50000x32 1 := cmpf .olt main_v9 main_v10
  let main_c_3 : IVec S_ 1 := constantI S_ 1 1#1
  let main_v12 : IVec S_ 1 := (fun x v => Host.reduce IntOp.andi x v reducesTo_S50000x32_S_d0_1 h_S_) main_v11 main_c_3
  let main_v13 : IVec S_ 1 := andi main_v8 main_v12
  let main_v14 : FVec F S1600000x48 .f32 := Host.absf main_arg4
  let main_cst_4 : FVec F S_ .f32 := constant S_ .f32 0x7F800000#32
  let main_v15 : FVec F S1600000x48 .f32 := broadcastInDim S1600000x48 ![] bcast_S_S1600000x48 main_cst_4
  let main_v16 : IVec S1600000x48 1 := cmpf .olt main_v14 main_v15
  fn_part1 (F := F) main_arg6 main_arg7 main_arg8 main_arg9 main_v13 main_v16
-- ==== Kernel.lean ====
abbrev S100000x64 : Shape := ⟨2, ![100000, 64]⟩
abbrev S50000x64 : Shape := ⟨2, ![50000, 64]⟩
abbrev S50000x32 : Shape := ⟨2, ![50000, 32]⟩
abbrev S2x1600000 : Shape := ⟨2, ![2, 1600000]⟩
abbrev S1600000x48 : Shape := ⟨2, ![1600000, 48]⟩
abbrev S50000 : Shape := ⟨1, ![50000]⟩
abbrev S208x256 : Shape := ⟨2, ![208, 256]⟩
abbrev S256 : Shape := ⟨1, ![256]⟩
abbrev S256x64 : Shape := ⟨2, ![256, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x48 : Shape := ⟨2, ![100000, 48]⟩
abbrev S1600000x1 : Shape := ⟨2, ![1600000, 1]⟩
abbrev S50000x1 : Shape := ⟨2, ![50000, 1]⟩
abbrev S50000x48 : Shape := ⟨2, ![50000, 48]⟩
abbrev S1x256 : Shape := ⟨2, ![1, 256]⟩
abbrev S1x64 : Shape := ⟨2, ![1, 64]⟩
abbrev S2000x64 : Shape := ⟨2, ![2000, 64]⟩
abbrev S2000x48 : Shape := ⟨2, ![2000, 48]⟩
abbrev S2000x32 : Shape := ⟨2, ![2000, 32]⟩
abbrev S2000x208 : Shape := ⟨2, ![2000, 208]⟩
abbrev S2000x256 : Shape := ⟨2, ![2000, 256]⟩

abbrev nBuf : Space → Nat
  | .hbm => 37
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S50000x32, .f32⟩
  | .hbm, ⟨3, _⟩ => ⟨S2x1600000, .i32⟩
  | .hbm, ⟨4, _⟩ => ⟨S1600000x48, .f32⟩
  | .hbm, ⟨5, _⟩ => ⟨S50000, .i32⟩
  | .hbm, ⟨6, _⟩ => ⟨S208x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000x48, .f32⟩
  | .hbm, ⟨14, _⟩ => ⟨S1600000x1, .i32⟩
  | .hbm, ⟨15, _⟩ => ⟨S100000x48, .f32⟩
  | .hbm, ⟨16, _⟩ => ⟨S_, .i32⟩
  | .hbm, ⟨17, _⟩ => ⟨S50000, .i32⟩
  | .hbm, ⟨18, _⟩ => ⟨S50000, .i1⟩
  | .hbm, ⟨19, _⟩ => ⟨S_, .i32⟩
  | .hbm, ⟨20, _⟩ => ⟨S50000, .i32⟩
  | .hbm, ⟨21, _⟩ => ⟨S50000, .i32⟩
  | .hbm, ⟨22, _⟩ => ⟨S50000, .i32⟩
  | .hbm, ⟨23, _⟩ => ⟨S50000x1, .i32⟩
  | .hbm, ⟨24, _⟩ => ⟨S50000x64, .f32⟩
  | .hbm, ⟨25, _⟩ => ⟨S_, .i32⟩
  | .hbm, ⟨26, _⟩ => ⟨S50000, .i32⟩
  | .hbm, ⟨27, _⟩ => ⟨S50000, .i1⟩
  | .hbm, ⟨28, _⟩ => ⟨S_, .i32⟩
  | .hbm, ⟨29, _⟩ => ⟨S50000, .i32⟩
  | .hbm, ⟨30, _⟩ => ⟨S50000, .i32⟩
  | .hbm, ⟨31, _⟩ => ⟨S50000, .i32⟩
  | .hbm, ⟨32, _⟩ => ⟨S50000x1, .i32⟩
  | .hbm, ⟨33, _⟩ => ⟨S50000x48, .f32⟩
  | .hbm, ⟨34, _⟩ => ⟨S1x256, .f32⟩
  | .hbm, ⟨35, _⟩ => ⟨S1x64, .f32⟩
  | .hbm, ⟨36, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x48, .f32⟩
  | .local _ .vmem, ⟨3, _⟩ => ⟨S2000x48, .f32⟩
  | .local _ .vmem, ⟨4, _⟩ => ⟨S2000x64, .f32⟩
  | .local _ .vmem, ⟨5, _⟩ => ⟨S2000x64, .f32⟩
  | .local _ .vmem, ⟨6, _⟩ => ⟨S2000x32, .f32⟩
  | .local _ .vmem, ⟨7, _⟩ => ⟨S2000x32, .f32⟩
  | .local _ .vmem, ⟨8, _⟩ => ⟨S208x256, .f32⟩
  | .local _ .vmem, ⟨9, _⟩ => ⟨S1x256, .f32⟩
  | .local _ .vmem, ⟨10, _⟩ => ⟨S256x64, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S208x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1600000_S1x1600000_0_0 : S2x1600000.Slices ![0, 0] S1x1600000
  shapeCasts_S1x1600000_S1600000 : S1x1600000.ShapeCasts S1600000
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  bcast_S_S50000 : S_.BroadcastsInDim S50000 (![] : Fin 0 → Fin S50000.rank)
  bcast_S50000_S50000x1_0 : S50000.BroadcastsInDim S50000x1 (![0] : Fin 1 → Fin S50000x1.rank)
  shapeCasts_S256_S1x256 : S256.ShapeCasts S1x256
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x32_S2000x32_0_0 : ∀ a, (![0, 0] : Fin 2 → Nat) a + S2000x32.size a ≤ S2000x32.size a
  h_S2000x32 : 0 < S2000x32.numel
  inb_S2000x48_S2000x48_0_0 : ∀ a, (![0, 0] : Fin 2 → Nat) a + S2000x48.size a ≤ S2000x48.size a
  h_S2000x48 : 0 < S2000x48.numel
  shapeCasts_S2000x48_S2000x48 : S2000x48.ShapeCasts S2000x48
  concatenates_S2000x64_S2000x64_S2000x32_S2000x48_S2000x208_d1 : Shape.Concatenates [S2000x64, S2000x64, S2000x32, S2000x48] S2000x208 1
  bitsLt_bf16_f32 : FTy.bits .bf16 < FTy.bits .f32
  inb_S208x256_S208x256_0_0 : ∀ a, (![0, 0] : Fin 2 → Nat) a + S208x256.size a ≤ S208x256.size a
  h_S208x256 : 0 < S208x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000x48_S1600000x1_S1600000x48_1_0_0_1_wf : ScatterDims.WF S100000x48 S1600000x1 S1600000x48 [1] [0] [0] 1
  gather_S100000x64_S50000x1_S50000x64_1_0_n_n_0_1_164_wf : GatherDims.WF S100000x64 S50000x1 S50000x64 [1] [0] [] [0] [] 1 ![1, 64]
  gather_S100000x48_S50000x1_S50000x48_1_0_n_n_0_1_148_wf : GatherDims.WF S100000x48 S50000x1 S50000x48 [1] [0] [] [0] [] 1 ![1, 48]
  dot_S2000x208_S208x256_S2000x256_1_0_0_1_n_n_wf : DotDims.WF S2000x208 S208x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x48.size a ≤ S50000x48.size a
  hwx0_1 : ∀ i : grid0.Coords, EltTy.bits .f32 = 32 ∨ (Rect.block (s := S50000x48) S2000x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S50000x32.size a
  hwx0_3 : ∀ i : grid0.Coords, EltTy.bits .f32 = 32 ∨ (Rect.block (s := S50000x32) S2000x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S208x256.size a ≤ S208x256.size a
  hwx0_4 : ∀ i : grid0.Coords, EltTy.bits .f32 = 32 ∨ (Rect.block (s := S208x256) S208x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S256x64.size a
  hwx0_6 : ∀ i : grid0.Coords, EltTy.bits .f32 = 32 ∨ (Rect.block (s := S256x64) S256x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S50000x64.size a
  hwx0_8 : ∀ i : grid0.Coords, EltTy.bits .f32 = 32 ∨ (Rect.block (s := S50000x64) S2000x64.size (cc0_transform_8 i) (hinb0_8 i)).WholeWords (EltTy.packing .f32)

variable [Facts₀]

def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def gather_S100000x48_S50000x1_S50000x48_1_0_n_n_0_1_148 : GatherDims S100000x48 S50000x1 S50000x48 where
  offsetDims := [1]
  collapsedSliceDims := [0]
  operandBatchingDims := []
  startIndicesBatchingDims := []
  startIndexMap := [0]
  indexVectorDim := 1
  sliceSizes := ![1, 48]
  wf := gather_S100000x48_S50000x1_S50000x48_1_0_n_n_0_1_148_wf
def dot_S2000x208_S208x256_S2000x256_1_0_0_1_n_n : DotDims S2000x208 S208x256 S2000x256 where
  lhsContracting := [1]
  rhsContracting := [0]
  lhsNonContracting := [0]
  rhsNonContracting := [1]
  lhsBatch := []
  rhsBatch := []
  wf := dot_S2000x208_S208x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v11) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2000x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S208x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S2000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S50000x32 : Shape := ⟨2, ![50000, 32]⟩
abbrev S2x1600000 : Shape := ⟨2, ![2, 1600000]⟩
abbrev S1600000x48 : Shape := ⟨2, ![1600000, 48]⟩
abbrev S50000 : Shape := ⟨1, ![50000]⟩
abbrev S208x256 : Shape := ⟨2, ![208, 256]⟩
abbrev S256 : Shape := ⟨1, ![256]⟩
abbrev S256x64 : Shape := ⟨2, ![256, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x48 : Shape := ⟨2, ![100000, 48]⟩
abbrev S1600000x1 : Shape := ⟨2, ![1600000, 1]⟩
abbrev S50000x1 : Shape := ⟨2, ![50000, 1]⟩
abbrev S50000x48 : Shape := ⟨2, ![50000, 48]⟩
abbrev S50000x208 : Shape := ⟨2, ![50000, 208]⟩
abbrev S50000x256 : Shape := ⟨2, ![50000, 256]⟩
abbrev S1x256 : Shape := ⟨2, ![1, 256]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S50000x32, .f32⟩
  | .hbm, ⟨3, _⟩ => ⟨S2x1600000, .i32⟩
  | .hbm, ⟨4, _⟩ => ⟨S1600000x48, .f32⟩
  | .hbm, ⟨5, _⟩ => ⟨S50000, .i32⟩
  | .hbm, ⟨6, _⟩ => ⟨S208x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000x48, .f32⟩
  | .hbm, ⟨14, _⟩ => ⟨S1600000x1, .i32⟩
  | .hbm, ⟨15, _⟩ => ⟨S100000x48, .f32⟩
  | .hbm, ⟨16, _⟩ => ⟨S_, .i32⟩
  | .hbm, ⟨17, _⟩ => ⟨S50000, .i32⟩
  | .hbm, ⟨18, _⟩ => ⟨S50000, .i1⟩
  | .hbm, ⟨19, _⟩ => ⟨S_, .i32⟩
  | .hbm, ⟨20, _⟩ => ⟨S50000, .i32⟩
  | .hbm, ⟨21, _⟩ => ⟨S50000, .i32⟩
  | .hbm, ⟨22, _⟩ => ⟨S50000, .i32⟩
  | .hbm, ⟨23, _⟩ => ⟨S50000x1, .i32⟩
  | .hbm, ⟨24, _⟩ => ⟨S50000x64, .f32⟩
  | .hbm, ⟨25, _⟩ => ⟨S_, .i32⟩
  | .hbm, ⟨26, _⟩ => ⟨S50000, .i32⟩
  | .hbm, ⟨27, _⟩ => ⟨S50000, .i1⟩
  | .hbm, ⟨28, _⟩ => ⟨S_, .i32⟩
  | .hbm, ⟨29, _⟩ => ⟨S50000, .i32⟩
  | .hbm, ⟨30, _⟩ => ⟨S50000, .i32⟩
  | .hbm, ⟨31, _⟩ => ⟨S50000, .i32⟩
  | .hbm, ⟨32, _⟩ => ⟨S50000x1, .i32⟩
  | .hbm, ⟨33, _⟩ => ⟨S50000x48, .f32⟩
  | .hbm, ⟨34, _⟩ => ⟨S50000x208, .f32⟩
  | .hbm, ⟨35, _⟩ => ⟨S50000x256, .f32⟩
  | .hbm, ⟨36, _⟩ => ⟨S1x256, .f32⟩
  | .hbm, ⟨37, _⟩ => ⟨S50000x256, .f32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x64_S50000x64_S50000x32_S50000x48_S50000x208_d1 : Shape.Concatenates [S50000x64, S50000x64, S50000x32, S50000x48] S50000x208 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S100000x48_S1600000x1_S1600000x48_1_0_0_1_wf : ScatterDims.WF S100000x48 S1600000x1 S1600000x48 [1] [0] [0] 1
  gather_S100000x64_S50000x1_S50000x64_1_0_n_n_0_1_164_wf : GatherDims.WF S100000x64 S50000x1 S50000x64 [1] [0] [] [0] [] 1 ![1, 64]
  gather_S100000x48_S50000x1_S50000x48_1_0_n_n_0_1_148_wf : GatherDims.WF S100000x48 S50000x1 S50000x48 [1] [0] [] [0] [] 1 ![1, 48]
  dot_S50000x208_S208x256_S50000x256_1_0_0_1_n_n_wf : DotDims.WF S50000x208 S208x256 S50000x256 [1] [0] [0] [1] [] []
  dot_S50000x256_S256x64_S50000x64_1_0_0_1_n_n_wf : DotDims.WF S50000x256 S256x64 S50000x64 [1] [0] [0] [1] [] []

variable [Facts₀]

def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def gather_S100000x48_S50000x1_S50000x48_1_0_n_n_0_1_148 : GatherDims S100000x48 S50000x1 S50000x48 where
  offsetDims := [1]
  collapsedSliceDims := [0]
  operandBatchingDims := []
  startIndicesBatchingDims := []
  startIndexMap := [0]
  indexVectorDim := 1
  sliceSizes := ![1, 48]
  wf := gather_S100000x48_S50000x1_S50000x48_1_0_n_n_0_1_148_wf
def dot_S50000x208_S208x256_S50000x256_1_0_0_1_n_n : DotDims S50000x208 S208x256 S50000x256 where
  lhsContracting := [1]
  rhsContracting := [0]
  lhsNonContracting := [0]
  rhsNonContracting := [1]
  lhsBatch := []
  rhsBatch := []
  wf := dot_S50000x208_S208x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.MlpSpec.lean ====
/-
  The specification: a two-layer perceptron applied row by row.

  For a row `u` of 208 features, a first layer `W1` (208 × 256) with bias `b1`, and a second layer `W2` (256 × 64)
  with bias `b2`, the output row is
      out j = (∑ k, max (∑ l, u l · W1 (l, k) + b1 k) 0 · W2 (k, j)) + b2 j
  over the extended reals. `mlp` is that function applied to every row of a 50000 × 208 feature matrix; both programs
  compute it, the one block of 2000 rows at a time and the other in one piece. Only commutativity-free unfolding joins
  the two sides: the sums are taken over the same index sets in the same order.
-/
import Idealize.ShloMosaic.PureOps.Ideal
import Idealize.ShloMosaic.Lib.ValueIdx

noncomputable section

open scoped BigOperators

namespace Cert.NodeMlp

open Idealize.ShloMosaic Idealize.ShloMosaic.ValueIdx

/-- One output row of the perceptron from one feature row. -/
def rowOut (u : Fin 208 → EReal) (W1 : (⟨2, ![208, 256]⟩ : Shape).Idx → EReal) (b1 : Fin 256 → EReal)
    (W2 : (⟨2, ![256, 64]⟩ : Shape).Idx → EReal) (b2 : Fin 64 → EReal) (j : Fin 64) : EReal :=
  (∑ k : Fin 256, max ((∑ l : Fin 208, u l * W1 (ix2 l k)) + b1 k) 0 * W2 (ix2 k j)) + b2 j

/-- The perceptron applied to every row of the feature matrix `cat`. -/
def mlp (cat : (⟨2, ![50000, 208]⟩ : Shape).Idx → EReal) (W1 : (⟨2, ![208, 256]⟩ : Shape).Idx → EReal)
    (b1 : (⟨1, ![256]⟩ : Shape).Idx → EReal) (W2 : (⟨2, ![256, 64]⟩ : Shape).Idx → EReal)
    (b2 : (⟨1, ![64]⟩ : Shape).Idx → EReal) : (⟨2, ![50000, 64]⟩ : Shape).Idx → EReal :=
  fun i => rowOut (fun l => cat (ix2 (i 0) l)) W1 (fun k => b1 (ix1 k)) W2 (fun j => b2 (ix1 j)) (i 1)

/-- The output row depends on the feature row only through its entries. -/
theorem rowOut_congr {u u' : Fin 208 → EReal} (h : ∀ l, u l = u' l) (W1 : (⟨2, ![208, 256]⟩ : Shape).Idx → EReal)
    (b1 : Fin 256 → EReal) (W2 : (⟨2, ![256, 64]⟩ : Shape).Idx → EReal) (b2 : Fin 64 → EReal) (j : Fin 64) :
    rowOut u W1 b1 W2 b2 j = rowOut u' W1 b1 W2 b2 j := by
  rw [show u = u' from funext h]

end Cert.NodeMlp

end
-- ==== Proof.LibPlainDotSum.lean ====
/-
  A matrix product read at an entry, as the textbook sum.

  A product of an `M × K` by a `K × N` matrix whose dimension numbers contract the left operand's columns with the
  right operand's rows, keep the left rows and the right columns in that order, and have no batch axis. At result
  entry `(i, j)` and contraction position `k` the left operand is read at `(i, k)` and the right at `(k, j)`, and the
  one-axis contraction index set is its coordinate range `Fin K`; so the sum over the contraction index is
  `∑ q : Fin K, A (i, q) * B (q, j)`. Stated for ANY dimension-number record with those lists and for operands of any
  two float formats, at the extended reals: for the accumulating block product into a zero accumulator and for the
  host's product. Nothing here depends on a particular program.
-/
import Idealize.ShloMosaic.PureOps.Ideal
import Idealize.ShloMosaic.PureOps.Ideal.Laws
import Idealize.ShloMosaic.Lib.ValueIdx

noncomputable section

open scoped BigOperators

namespace Cert.LibPlainDotSum

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent `K`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry `(i, j)`: at contraction position `k` with coordinate `q` the
    left operand is read at `(i, q)` and the right at `(q, j)`, and the positions correspond one to one to the
    coordinates `q : Fin K`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)

/-- A block product into the zero accumulator, read at `(i, j)`, is that sum. -/
theorem matmul_zero_apply {φ₁ φ₂ : FTy} (prec : Option ContractPrecision) (l : FVec Ideal (⟨2, ![M, K]⟩ : Shape) φ₁)
    (r : FVec Ideal (⟨2, ![K, N]⟩ : Shape) φ₂) (i : Fin M) (j : Fin N) :
    matmul d prec l r (constant (⟨2, ![M, N]⟩ : Shape) .f32 0x00000000#32) (ix2 i j)
      = ∑ q : Fin K, l (ix2 i q) * r (ix2 q j) := by
  show FloatOps.matmul d prec l r (constant (⟨2, ![M, N]⟩ : Shape) .f32 0x00000000#32) (ix2 i j) = _
  rw [Ideal.matmul_constant_zero_apply]
  exact plain_sum d hlc hrc hln hrn hlb hrb l r i j

/-- The host's product, read at `(i, j)`, is that sum. -/
theorem hostDot_apply {φ₁ φ₂ : FTy} (prec : Option ContractPrecision) (l : FVec Ideal (⟨2, ![M, K]⟩ : Shape) φ₁)
    (r : FVec Ideal (⟨2, ![K, N]⟩ : Shape) φ₂) (i : Fin M) (j : Fin N) :
    Host.dotGeneral d prec l r (ix2 i j) = ∑ q : Fin K, l (ix2 i q) * r (ix2 q j) := by
  simp only [Host.dotGeneral]
  rw [Ideal.dotGeneral_apply]
  exact plain_sum d hlc hrc hln hrn hlb hrb l r i j

end Cert.LibPlainDotSum

end
-- ==== Proof.KernelRow.lean ====
/-
  One grid point of the kernel computes the perceptron on its 2000 rows.

  The body joins its four input blocks along the columns into a 2000 × 208 matrix, multiplies by the first layer,
  adds the first bias (held as a one-row matrix and repeated down the rows), takes the maximum with zero, multiplies by
  the second layer and adds the second bias. The narrowing of the operands before each product is the identity over
  the extended reals, and each product into the zero accumulator is the plain sum over the contracted axis. So entry
  `(p, j)` of the stored block is `rowOut` of row `p` of the joined blocks.
-/
import proofs.«177867_j50242527429374_1_alg».proof.Proof.Gen.KernelIdeal.Skeleton
import proofs.«177867_j50242527429374_1_alg».proof.Proof.MlpSpec
import proofs.«177867_j50242527429374_1_alg».proof.Proof.LibPlainDotSum
import Idealize.ShloMosaic.Lib.Pipeline.Value
import Idealize.ShloMosaic.Lib.ValueIdx
import Idealize.ShloMosaic.PureOps.Ideal.Laws

noncomputable section

open scoped BigOperators

namespace Cert.NodeMlp.Kernel

open Cert.KernelIdeal Cert.KernelIdeal.Gen Idealize.ShloMosaic Idealize.ShloMosaic.ValueIdx

/-- A one-row matrix repeated down 2000 rows reads the row at the column. -/
theorem bias_rows_apply {n : ℕ} (hn : n ≠ 1) (b : (⟨2, ![1, n]⟩ : Shape).Idx → EReal)
    (h : (⟨2, ![1, n]⟩ : Shape).Broadcasts ⟨2, ![2000, n]⟩) (p : Fin 2000) (j : Fin n) :
    broadcastTo (⟨2, ![2000, n]⟩ : Shape) b h (ix2 p j) = b (ix2 0 j) :=
  broadcastTo_apply b h (ix2 p j) (ix2 0 j) fun a => by
    match a with
    | ⟨0, _⟩ => show (0 : ℕ) = if (1 : ℕ) = 1 then 0 else _; rw [if_pos rfl]
    | ⟨1, _⟩ => show j.val = if n = 1 then 0 else j.val; rw [if_neg hn]

/-- The four blocks a grid point loads, joined along the columns. -/
abbrev joined (v0 : Vec Ideal S2000x64 .f32) (v2 : Vec Ideal S2000x64 .f32) (v3 : Vec Ideal S2000x32 .f32)
    (v4 : Vec Ideal S2000x48 .f32) : (⟨2, ![2000, 208]⟩ : Shape).Idx → EReal :=
  concatenate S2000x208 1 [⟨S2000x64, v0⟩, ⟨S2000x64, v2⟩, ⟨S2000x32, v3⟩, ⟨S2000x48, v4⟩]
    concatenates_S2000x64_S2000x64_S2000x32_S2000x48_S2000x208_d1

/-- Entry `(p, j)` of what the body stores is the perceptron's output `j` on row `p` of the joined blocks. -/
theorem payload_apply (v0 : Vec Ideal S2000x64 .f32) (v2 : Vec Ideal S2000x64 .f32) (v3 : Vec Ideal S2000x32 .f32)
    (v4 : Vec Ideal S2000x48 .f32) (v8 : Vec Ideal S208x256 .f32) (v11 : Vec Ideal S1x256 .f32)
    (v18 : Vec Ideal S256x64 .f32) (v21 : Vec Ideal S1x64 .f32) (p : Fin 2000) (j : Fin 64) :
    k0_pay1 (F := Ideal) v0 v2 v3 v4 v8 v11 v18 v21 (ix2 p j)
      = rowOut (fun l => joined v0 v2 v3 v4 (ix2 p l)) v8 (fun k => v11 (ix2 0 k)) v18 (fun q => v21 (ix2 0 q)) j := by
  unfold k0_pay1
  rw [shapeCast_self v0, shapeCast_self v4, shapeCast_self v11, shapeCast_self v21]
  unfold rowOut
  rw [addf_apply, LibPlainDotSum.matmul_zero_apply dot_S2000x256_S256x64_S2000x64_1_0_0_1_n_n rfl rfl rfl rfl rfl rfl,
    bias_rows_apply (by decide) v21]
  refine congrArg (· + v21 (ix2 0 j)) (Finset.sum_congr rfl fun k _ => ?_)
  rw [truncf_apply, truncf_apply, maximumf_apply, addf_apply,
    LibPlainDotSum.matmul_zero_apply dot_S2000x208_S208x256_S2000x256_1_0_0_1_n_n rfl rfl rfl rfl rfl rfl,
    bias_rows_apply (by decide) v11, broadcast_apply]
  have hz : (Scalar.ofBits (F := Ideal) .f32 0x00000000#32) = (0 : EReal) := Ideal.ofBits_zero_f32
  rw [hz]
  refine congrArg (fun s => max (s + v11 (ix2 0 k)) 0 * v18 (ix2 k j)) (Finset.sum_congr rfl fun l _ => ?_)
  rw [truncf_apply, truncf_apply]

end Cert.NodeMlp.Kernel

end
-- ==== Proof.LibJoinCols4.lean ====
/-
  Four matrices laid side by side, read at an entry.

  Joining an `[n, a0]`, an `[n, a1]`, an `[n, a2]` and an `[n, a3]` matrix along the column axis gives an `[n, c]`
  matrix with `c = a0 + a1 + a2 + a3` whose row `p` is the four rows `p` one after the other. `joinRow4` is that row as
  a function of the column: each column falls in exactly one of the four spans and reads that matrix's row at the
  column less the widths before it. The lemma reads the printed concatenation at `(p, j)` as `joinRow4` of the four
  rows `p`, at any row count; so two concatenations whose pieces agree row by row agree row by row.
-/
import Idealize.ShloMosaic.Lib.Pipeline.Value
import Idealize.ShloMosaic.Lib.ValueIdx

namespace Cert.LibJoinCols4

open Idealize.ShloMosaic Idealize.ShloMosaic.ValueIdx

variable {α : Type}

/-- Four rows of `a0`, `a1`, `a2`, `a3` entries, one after the other, as one row of `c` entries. -/
def joinRow4 {a0 a1 a2 a3 c : ℕ} (hc : c = a0 + a1 + a2 + a3) (u0 : Fin a0 → α) (u1 : Fin a1 → α) (u2 : Fin a2 → α)
    (u3 : Fin a3 → α) : Fin c → α :=
  fun j =>
    if h0 : j.val < a0 then u0 ⟨j.val, h0⟩
    else if h1 : j.val < a0 + a1 then u1 ⟨j.val - a0, by omega⟩
    else if h2 : j.val < a0 + a1 + a2 then u2 ⟨j.val - (a0 + a1), by omega⟩
    else u3 ⟨j.val - (a0 + a1 + a2), by have := j.isLt; omega⟩

/-- Rows that agree entry by entry join to the same row. -/
theorem joinRow4_congr {a0 a1 a2 a3 c : ℕ} (hc : c = a0 + a1 + a2 + a3) {u0 u0' : Fin a0 → α} {u1 u1' : Fin a1 → α}
    {u2 u2' : Fin a2 → α} {u3 u3' : Fin a3 → α} (h0 : ∀ j, u0 j = u0' j) (h1 : ∀ j, u1 j = u1' j)
    (h2 : ∀ j, u2 j = u2' j) (h3 : ∀ j, u3 j = u3' j) : joinRow4 hc u0 u1 u2 u3 = joinRow4 hc u0' u1' u2' u3' := by
  rw [show u0 = u0' from funext h0, show u1 = u1' from funext h1, show u2 = u2' from funext h2,
    show u3 = u3' from funext h3]

/-- The four matrices, each with its shape, as the list a concatenation takes. -/
abbrev pieces4 {n a0 a1 a2 a3 : ℕ} (x0 : (⟨2, ![n, a0]⟩ : Shape).Idx → α) (x1 : (⟨2, ![n, a1]⟩ : Shape).Idx → α)
    (x2 : (⟨2, ![n, a2]⟩ : Shape).Idx → α) (x3 : (⟨2, ![n, a3]⟩ : Shape).Idx → α) : List ((s : Shape) × (s.Idx → α)) :=
  [⟨(⟨2, ![n, a0]⟩ : Shape), x0⟩, ⟨(⟨2, ![n, a1]⟩ : Shape), x1⟩, ⟨(⟨2, ![n, a2]⟩ : Shape), x2⟩,
    ⟨(⟨2, ![n, a3]⟩ : Shape), x3⟩]

/-- The concatenation of four matrices with `n` rows along the columns, read at `(p, j)`, is entry `j` of the four
    rows `p` joined. -/
theorem concatenate_cols4_apply {n a0 a1 a2 a3 c : ℕ} (hc : c = a0 + a1 + a2 + a3)
    (x0 : (⟨2, ![n, a0]⟩ : Shape).Idx → α) (x1 : (⟨2, ![n, a1]⟩ : Shape).Idx → α)
    (x2 : (⟨2, ![n, a2]⟩ : Shape).Idx → α) (x3 : (⟨2, ![n, a3]⟩ : Shape).Idx → α)
    (h : Shape.Concatenates [(⟨2, ![n, a0]⟩ : Shape), (⟨2, ![n, a1]⟩ : Shape), (⟨2, ![n, a2]⟩ : Shape),
      (⟨2, ![n, a3]⟩ : Shape)] (⟨2, ![n, c]⟩ : Shape) (1 : Fin 2))
    (p : Fin n) (j : Fin c) :
    concatenate (⟨2, ![n, c]⟩ : Shape) (1 : Fin 2)
        [⟨(⟨2, ![n, a0]⟩ : Shape), x0⟩, ⟨(⟨2, ![n, a1]⟩ : Shape), x1⟩, ⟨(⟨2, ![n, a2]⟩ : Shape), x2⟩,
          ⟨(⟨2, ![n, a3]⟩ : Shape), x3⟩] h (ix2 p j)
      = joinRow4 hc (fun q => x0 (ix2 p q)) (fun q => x1 (ix2 p q)) (fun q => x2 (ix2 p q)) (fun q => x3 (ix2 p q)) j := by
  have hjc := j.isLt
  unfold joinRow4
  by_cases h0 : j.val < a0
  · rw [dif_pos h0]
    refine concatenate_apply_piece (t := (⟨2, ![n, c]⟩ : Shape)) (1 : Fin 2) (pieces4 x0 x1 x2 x3) h (ix2 p j) 0 (show (0 : ℕ) < 4 by omega) (⟨2, ![n, a0]⟩ : Shape) x0 rfl rfl 0 rfl
      (ix2 p ⟨j.val, h0⟩) (fun d hd => ?_) ?_
    · match d with
      | ⟨0, _⟩ => rfl
      | ⟨1, _⟩ => exact absurd rfl hd
    · show 0 + j.val = j.val
      omega
  · rw [dif_neg h0]
    by_cases h1 : j.val < a0 + a1
    · rw [dif_pos h1]
      refine concatenate_apply_piece (t := (⟨2, ![n, c]⟩ : Shape)) (1 : Fin 2) (pieces4 x0 x1 x2 x3) h (ix2 p j) 1 (show (1 : ℕ) < 4 by omega) (⟨2, ![n, a1]⟩ : Shape) x1 rfl rfl a0 ?_
        (ix2 p ⟨j.val - a0, by omega⟩) (fun d hd => ?_) ?_
      · show a0 + 0 = a0
        rfl
      · match d with
        | ⟨0, _⟩ => rfl
        | ⟨1, _⟩ => exact absurd rfl hd
      · show a0 + (j.val - a0) = j.val
        omega
    · rw [dif_neg h1]
      by_cases h2 : j.val < a0 + a1 + a2
      · rw [dif_pos h2]
        refine concatenate_apply_piece (t := (⟨2, ![n, c]⟩ : Shape)) (1 : Fin 2) (pieces4 x0 x1 x2 x3) h (ix2 p j) 2 (show (2 : ℕ) < 4 by omega) (⟨2, ![n, a2]⟩ : Shape) x2 rfl rfl (a0 + a1) ?_
          (ix2 p ⟨j.val - (a0 + a1), by omega⟩) (fun d hd => ?_) ?_
        · show a0 + (a1 + 0) = a0 + a1
          rfl
        · match d with
          | ⟨0, _⟩ => rfl
          | ⟨1, _⟩ => exact absurd rfl hd
        · show a0 + a1 + (j.val - (a0 + a1)) = j.val
          omega
      · rw [dif_neg h2]
        refine concatenate_apply_piece (t := (⟨2, ![n, c]⟩ : Shape)) (1 : Fin 2) (pieces4 x0 x1 x2 x3) h (ix2 p j) 3 (show (3 : ℕ) < 4 by omega) (⟨2, ![n, a3]⟩ : Shape) x3 rfl rfl (a0 + a1 + a2) ?_
          (ix2 p ⟨j.val - (a0 + a1 + a2), by omega⟩) (fun d hd => ?_) ?_
        · show a0 + (a1 + (a2 + 0)) = a0 + a1 + a2
          omega
        · match d with
          | ⟨0, _⟩ => rfl
          | ⟨1, _⟩ => exact absurd rfl hd
        · show a0 + a1 + a2 + (j.val - (a0 + a1 + a2)) = j.val
          omega

end Cert.LibJoinCols4
-- ==== Proof.Features.lean ====
/-
  The feature matrix: four matrices with 50000 rows laid side by side.

  Row `r` of the feature matrix is row `r` of the gathered node features (64 columns), of the first dense block (64),
  of the second dense block (32) and of the gathered edge sums (48), one after the other: 208 columns. A printed
  concatenation of four such matrices along the columns is this matrix.
-/
import proofs.«177867_j50242527429374_1_alg».proof.Proof.LibJoinCols4
import proofs.«177867_j50242527429374_1_alg».proof.Proof.MlpSpec

noncomputable section

namespace Cert.NodeMlp

open Idealize.ShloMosaic Idealize.ShloMosaic.ValueIdx Cert.LibJoinCols4

/-- The four matrices joined row by row. -/
def features (A0 : (⟨2, ![50000, 64]⟩ : Shape).Idx → EReal) (A1 : (⟨2, ![50000, 64]⟩ : Shape).Idx → EReal)
    (A2 : (⟨2, ![50000, 32]⟩ : Shape).Idx → EReal) (A3 : (⟨2, ![50000, 48]⟩ : Shape).Idx → EReal) :
    (⟨2, ![50000, 208]⟩ : Shape).Idx → EReal :=
  fun i => joinRow4 (rfl : 208 = 64 + 64 + 32 + 48) (fun q => A0 (ix2 (i 0) q)) (fun q => A1 (ix2 (i 0) q))
    (fun q => A2 (ix2 (i 0) q)) (fun q => A3 (ix2 (i 0) q)) (i 1)

/-- A concatenation of the four matrices along the columns is the feature matrix. -/
theorem concatenate_eq_features (A0 : (⟨2, ![50000, 64]⟩ : Shape).Idx → EReal) (A1 : (⟨2, ![50000, 64]⟩ : Shape).Idx → EReal)
    (A2 : (⟨2, ![50000, 32]⟩ : Shape).Idx → EReal) (A3 : (⟨2, ![50000, 48]⟩ : Shape).Idx → EReal)
    (h : Shape.Concatenates [(⟨2, ![50000, 64]⟩ : Shape), (⟨2, ![50000, 64]⟩ : Shape), (⟨2, ![50000, 32]⟩ : Shape),
      (⟨2, ![50000, 48]⟩ : Shape)] (⟨2, ![50000, 208]⟩ : Shape) (1 : Fin 2)) :
    concatenate (⟨2, ![50000, 208]⟩ : Shape) (1 : Fin 2)
        [⟨(⟨2, ![50000, 64]⟩ : Shape), A0⟩, ⟨(⟨2, ![50000, 64]⟩ : Shape), A1⟩, ⟨(⟨2, ![50000, 32]⟩ : Shape), A2⟩,
          ⟨(⟨2, ![50000, 48]⟩ : Shape), A3⟩] h
      = features A0 A1 A2 A3 := by
  funext i
  obtain ⟨r, l, rfl⟩ : ∃ (r : Fin 50000) (l : Fin 208), i = ix2 r l := ⟨i 0, i 1, eq_ix2 i⟩
  exact concatenate_cols4_apply (rfl : 208 = 64 + 64 + 32 + 48) A0 A1 A2 A3 h r l

/-- Row `p` of the four blocks of 2000 rows that a grid point joins is row `2000 t + p` of the feature matrix, when
    each block's row `p` is its matrix's row `2000 t + p`. -/
theorem joined_block_row (A0 : (⟨2, ![50000, 64]⟩ : Shape).Idx → EReal) (A1 : (⟨2, ![50000, 64]⟩ : Shape).Idx → EReal)
    (A2 : (⟨2, ![50000, 32]⟩ : Shape).Idx → EReal) (A3 : (⟨2, ![50000, 48]⟩ : Shape).Idx → EReal)
    (B0 : (⟨2, ![2000, 64]⟩ : Shape).Idx → EReal) (B1 : (⟨2, ![2000, 64]⟩ : Shape).Idx → EReal)
    (B2 : (⟨2, ![2000, 32]⟩ : Shape).Idx → EReal) (B3 : (⟨2, ![2000, 48]⟩ : Shape).Idx → EReal)
    (h : Shape.Concatenates [(⟨2, ![2000, 64]⟩ : Shape), (⟨2, ![2000, 64]⟩ : Shape), (⟨2, ![2000, 32]⟩ : Shape),
      (⟨2, ![2000, 48]⟩ : Shape)] (⟨2, ![2000, 208]⟩ : Shape) (1 : Fin 2))
    (p : Fin 2000) (r : Fin 50000)
    (h0 : ∀ q, B0 (ix2 p q) = A0 (ix2 r q)) (h1 : ∀ q, B1 (ix2 p q) = A1 (ix2 r q))
    (h2 : ∀ q, B2 (ix2 p q) = A2 (ix2 r q)) (h3 : ∀ q, B3 (ix2 p q) = A3 (ix2 r q)) (l : Fin 208) :
    concatenate (⟨2, ![2000, 208]⟩ : Shape) (1 : Fin 2)
        [⟨(⟨2, ![2000, 64]⟩ : Shape), B0⟩, ⟨(⟨2, ![2000, 64]⟩ : Shape), B1⟩, ⟨(⟨2, ![2000, 32]⟩ : Shape), B2⟩,
          ⟨(⟨2, ![2000, 48]⟩ : Shape), B3⟩] h (ix2 p l)
      = features A0 A1 A2 A3 (ix2 r l) := by
  rw [concatenate_cols4_apply (rfl : 208 = 64 + 64 + 32 + 48) B0 B1 B2 B3 h p l]
  unfold features
  exact congrFun (joinRow4_congr _ h0 h1 h2 h3) l

end Cert.NodeMlp

end
-- ==== Proof.KernelBlocks.lean ====
/-
  Where each window's block sits in its array.

  The grid has 25 points; at point `t` the four row-blocked windows hold rows `2000 t … 2000 t + 1999` of their arrays
  (the gathered node rows, the gathered edge sums and the two dense blocks) and the four weight windows hold their
  whole arrays: a block's entry at `(p, q)` is the array's entry at (block row × 2000 + p, q), whatever the array holds.
-/
import proofs.«177867_j50242527429374_1_alg».proof.Proof.Gen.KernelIdeal.Value
import proofs.«177867_j50242527429374_1_alg».proof.Proof.KernelRow
import proofs.«177867_j50242527429374_1_alg».proof.Proof.Features

noncomputable section

open scoped BigOperators

namespace Cert.NodeMlp.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, by their mathematical roles -/

/-- The gathered node rows. -/
abbrev nodeRows (c : Dev nD) : (⟨2, ![50000, 64]⟩ : Shape).Idx → EReal := V m c (Pipeline.arrRef spec0 0)
/-- The gathered edge sums. -/
abbrev edgeRows (c : Dev nD) : (⟨2, ![50000, 48]⟩ : Shape).Idx → EReal := V m c (Pipeline.arrRef spec0 1)
/-- The first dense block. -/
abbrev denseA (c : Dev nD) : (⟨2, ![50000, 64]⟩ : Shape).Idx → EReal := V m c (Pipeline.arrRef spec0 2)
/-- The second dense block. -/
abbrev denseB (c : Dev nD) : (⟨2, ![50000, 32]⟩ : Shape).Idx → EReal := V m c (Pipeline.arrRef spec0 3)
/-- The first layer. -/
abbrev layer1 (c : Dev nD) : (⟨2, ![208, 256]⟩ : Shape).Idx → EReal := V m c (Pipeline.arrRef spec0 4)
/-- The first bias, as a one-row matrix. -/
abbrev bias1 (c : Dev nD) : (⟨2, ![1, 256]⟩ : Shape).Idx → EReal := V m c (Pipeline.arrRef spec0 5)
/-- The second layer. -/
abbrev layer2 (c : Dev nD) : (⟨2, ![256, 64]⟩ : Shape).Idx → EReal := V m c (Pipeline.arrRef spec0 6)
/-- The second bias, as a one-row matrix. -/
abbrev bias2 (c : Dev nD) : (⟨2, ![1, 64]⟩ : Shape).Idx → EReal := V m c (Pipeline.arrRef spec0 7)

/-- The whole result: the perceptron of the feature matrix, the biases read off their one row. -/
def result (c : Dev nD) : (⟨2, ![50000, 64]⟩ : Shape).Idx → EReal :=
  mlp (features (nodeRows m c) (denseA m c) (denseB m c) (edgeRows m c)) (layer1 m c)
    (fun k => bias1 m c (ix2 0 (k 0))) (layer2 m c) (fun q => bias2 m c (ix2 0 (q 0)))

/-! ## Where each window's block sits -/

/-- The block index of every window at every grid point: the row-blocked windows are at block row `t`, the weight
    windows at the origin. Decided over the 25 points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 25 := by
  have h := t.isLt
  have hN : cfg0.N = 25 := N_0
  omega

/-- Row `p` of the block of the node-row window at point `t`, read off ANY contents `A` of its array, is row `2000 t + p` of `A`. -/
theorem nodeRead (c : Dev nD) (A : Buf (Elt Ideal) ((c : Thread nD τ).loc (Pipeline.arrRef spec0 0)))
    (t : Fin cfg0.N) (p : Fin 2000) (q : Fin 64) (r : Fin 50000) (hr : r.val = 2000 * t.val + p.val) :
    (((cfg0.win 0).blk t).view.read (Elt Ideal) A : Vec Ideal S2000x64 .f32) (ix2 p q)
      = (A : (⟨2, ![50000, 64]⟩ : Shape).Idx → EReal) (ix2 r q) := by
  obtain ⟨e0, e1, -⟩ := block_index t
  rw [View.read_apply]
  show A _ = A _
  congr 1
  funext a
  refine Fin.ext ?_
  match a with
  | ⟨0, _⟩ => show win0_0.index t 0 * 2000 + 1 * p.val = r.val; rw [e0, hr]; omega
  | ⟨1, _⟩ => show win0_0.index t 1 * 64 + 1 * q.val = q.val; rw [e1]; omega

theorem nodeBlock_apply (c : Dev nD) (t : Fin cfg0.N) (p : Fin 2000) (q : Fin 64) (r : Fin 50000)
    (hr : r.val = 2000 * t.val + p.val) :
    (iblk m c 0 t : Vec Ideal S2000x64 .f32) (ix2 p q) = nodeRows m c (ix2 r q) :=
  nodeRead c (V m c (Pipeline.arrRef spec0 0)) t p q r hr

/-- Row `p` of the block of the edge-sum window at point `t`, read off ANY contents `A` of its array, is row `2000 t + p` of `A`. -/
theorem edgeRead (c : Dev nD) (A : Buf (Elt Ideal) ((c : Thread nD τ).loc (Pipeline.arrRef spec0 1)))
    (t : Fin cfg0.N) (p : Fin 2000) (q : Fin 48) (r : Fin 50000) (hr : r.val = 2000 * t.val + p.val) :
    (((cfg0.win 1).blk t).view.read (Elt Ideal) A : Vec Ideal S2000x48 .f32) (ix2 p q)
      = (A : (⟨2, ![50000, 48]⟩ : Shape).Idx → EReal) (ix2 r q) := by
  obtain ⟨-, -, e0, e1, -⟩ := block_index t
  rw [View.read_apply]
  show A _ = A _
  congr 1
  funext a
  refine Fin.ext ?_
  match a with
  | ⟨0, _⟩ => show win0_1.index t 0 * 2000 + 1 * p.val = r.val; rw [e0, hr]; omega
  | ⟨1, _⟩ => show win0_1.index t 1 * 48 + 1 * q.val = q.val; rw [e1]; omega

theorem edgeBlock_apply (c : Dev nD) (t : Fin cfg0.N) (p : Fin 2000) (q : Fin 48) (r : Fin 50000)
    (hr : r.val = 2000 * t.val + p.val) :
    (iblk m c 1 t : Vec Ideal S2000x48 .f32) (ix2 p q) = edgeRows m c (ix2 r q) :=
  edgeRead c (V m c (Pipeline.arrRef spec0 1)) t p q r hr

/-- Row `p` of the block of the first dense block's window at point `t`, read off ANY contents `A` of its array, is row `2000 t + p` of `A`. -/
theorem denseARead (c : Dev nD) (A : Buf (Elt Ideal) ((c : Thread nD τ).loc (Pipeline.arrRef spec0 2)))
    (t : Fin cfg0.N) (p : Fin 2000) (q : Fin 64) (r : Fin 50000) (hr : r.val = 2000 * t.val + p.val) :
    (((cfg0.win 2).blk t).view.read (Elt Ideal) A : Vec Ideal S2000x64 .f32) (ix2 p q)
      = (A : (⟨2, ![50000, 64]⟩ : Shape).Idx → EReal) (ix2 r q) := by
  obtain ⟨-, -, -, -, e0, e1, -⟩ := block_index t
  rw [View.read_apply]
  show A _ = A _
  congr 1
  funext a
  refine Fin.ext ?_
  match a with
  | ⟨0, _⟩ => show win0_2.index t 0 * 2000 + 1 * p.val = r.val; rw [e0, hr]; omega
  | ⟨1, _⟩ => show win0_2.index t 1 * 64 + 1 * q.val = q.val; rw [e1]; omega

theorem denseABlock_apply (c : Dev nD) (t : Fin cfg0.N) (p : Fin 2000) (q : Fin 64) (r : Fin 50000)
    (hr : r.val = 2000 * t.val + p.val) :
    (iblk m c 2 t : Vec Ideal S2000x64 .f32) (ix2 p q) = denseA m c (ix2 r q) :=
  denseARead c (V m c (Pipeline.arrRef spec0 2)) t p q r hr

/-- Row `p` of the block of the second dense block's window at point `t`, read off ANY contents `A` of its array, is row `2000 t + p` of `A`. -/
theorem denseBRead (c : Dev nD) (A : Buf (Elt Ideal) ((c : Thread nD τ).loc (Pipeline.arrRef spec0 3)))
    (t : Fin cfg0.N) (p : Fin 2000) (q : Fin 32) (r : Fin 50000) (hr : r.val = 2000 * t.val + p.val) :
    (((cfg0.win 3).blk t).view.read (Elt Ideal) A : Vec Ideal S2000x32 .f32) (ix2 p q)
      = (A : (⟨2, ![50000, 32]⟩ : Shape).Idx → EReal) (ix2 r q) := by
  obtain ⟨-, -, -, -, -, -, e0, e1, -⟩ := block_index t
  rw [View.read_apply]
  show A _ = A _
  congr 1
  funext a
  refine Fin.ext ?_
  match a with
  | ⟨0, _⟩ => show win0_3.index t 0 * 2000 + 1 * p.val = r.val; rw [e0, hr]; omega
  | ⟨1, _⟩ => show win0_3.index t 1 * 32 + 1 * q.val = q.val; rw [e1]; omega

theorem denseBBlock_apply (c : Dev nD) (t : Fin cfg0.N) (p : Fin 2000) (q : Fin 32) (r : Fin 50000)
    (hr : r.val = 2000 * t.val + p.val) :
    (iblk m c 3 t : Vec Ideal S2000x32 .f32) (ix2 p q) = denseB m c (ix2 r q) :=
  denseBRead c (V m c (Pipeline.arrRef spec0 3)) t p q r hr

/-- The block of the first layer's window at any point, read off ANY contents `A` of its array, is `A` itself. -/
theorem layer1Read (c : Dev nD) (A : Buf (Elt Ideal) ((c : Thread nD τ).loc (Pipeline.arrRef spec0 4)))
    (t : Fin cfg0.N) (p : Fin 208) (q : Fin 256) :
    (((cfg0.win 4).blk t).view.read (Elt Ideal) A : Vec Ideal S208x256 .f32) (ix2 p q)
      = (A : (⟨2, ![208, 256]⟩ : Shape).Idx → EReal) (ix2 p q) := by
  obtain ⟨-, -, -, -, -, -, -, -, e0, e1, -⟩ := block_index t
  rw [View.read_apply]
  show A _ = A _
  congr 1
  funext a
  refine Fin.ext ?_
  match a with
  | ⟨0, _⟩ => show win0_4.index t 0 * 208 + 1 * p.val = p.val; rw [e0]; omega
  | ⟨1, _⟩ => show win0_4.index t 1 * 256 + 1 * q.val = q.val; rw [e1]; omega

theorem layer1Block_apply (c : Dev nD) (t : Fin cfg0.N) (p : Fin 208) (q : Fin 256) :
    (iblk m c 4 t : Vec Ideal S208x256 .f32) (ix2 p q) = layer1 m c (ix2 p q) :=
  layer1Read c (V m c (Pipeline.arrRef spec0 4)) t p q

/-- The block of the first bias's window at any point, read off ANY contents `A` of its array, is `A` itself. -/
theorem bias1Read (c : Dev nD) (A : Buf (Elt Ideal) ((c : Thread nD τ).loc (Pipeline.arrRef spec0 5)))
    (t : Fin cfg0.N) (p : Fin 1) (q : Fin 256) :
    (((cfg0.win 5).blk t).view.read (Elt Ideal) A : Vec Ideal S1x256 .f32) (ix2 p q)
      = (A : (⟨2, ![1, 256]⟩ : Shape).Idx → EReal) (ix2 p q) := by
  obtain ⟨-, -, -, -, -, -, -, -, -, -, e0, e1, -⟩ := block_index t
  rw [View.read_apply]
  show A _ = A _
  congr 1
  funext a
  refine Fin.ext ?_
  match a with
  | ⟨0, _⟩ => show win0_5.index t 0 * 1 + 1 * p.val = p.val; rw [e0]; omega
  | ⟨1, _⟩ => show win0_5.index t 1 * 256 + 1 * q.val = q.val; rw [e1]; omega

theorem bias1Block_apply (c : Dev nD) (t : Fin cfg0.N) (p : Fin 1) (q : Fin 256) :
    (iblk m c 5 t : Vec Ideal S1x256 .f32) (ix2 p q) = bias1 m c (ix2 p q) :=
  bias1Read c (V m c (Pipeline.arrRef spec0 5)) t p q

/-- The block of the second layer's window at any point, read off ANY contents `A` of its array, is `A` itself. -/
theorem layer2Read (c : Dev nD) (A : Buf (Elt Ideal) ((c : Thread nD τ).loc (Pipeline.arrRef spec0 6)))
    (t : Fin cfg0.N) (p : Fin 256) (q : Fin 64) :
    (((cfg0.win 6).blk t).view.read (Elt Ideal) A : Vec Ideal S256x64 .f32) (ix2 p q)
      = (A : (⟨2, ![256, 64]⟩ : Shape).Idx → EReal) (ix2 p q) := by
  obtain ⟨-, -, -, -, -, -, -, -, -, -, -, -, e0, e1, -⟩ := block_index t
  rw [View.read_apply]
  show A _ = A _
  congr 1
  funext a
  refine Fin.ext ?_
  match a with
  | ⟨0, _⟩ => show win0_6.index t 0 * 256 + 1 * p.val = p.val; rw [e0]; omega
  | ⟨1, _⟩ => show win0_6.index t 1 * 64 + 1 * q.val = q.val; rw [e1]; omega

theorem layer2Block_apply (c : Dev nD) (t : Fin cfg0.N) (p : Fin 256) (q : Fin 64) :
    (iblk m c 6 t : Vec Ideal S256x64 .f32) (ix2 p q) = layer2 m c (ix2 p q) :=
  layer2Read c (V m c (Pipeline.arrRef spec0 6)) t p q

/-- The block of the second bias's window at any point, read off ANY contents `A` of its array, is `A` itself. -/
theorem bias2Read (c : Dev nD) (A : Buf (Elt Ideal) ((c : Thread nD τ).loc (Pipeline.arrRef spec0 7)))
    (t : Fin cfg0.N) (p : Fin 1) (q : Fin 64) :
    (((cfg0.win 7).blk t).view.read (Elt Ideal) A : Vec Ideal S1x64 .f32) (ix2 p q)
      = (A : (⟨2, ![1, 64]⟩ : Shape).Idx → EReal) (ix2 p q) := by
  obtain ⟨-, -, -, -, -, -, -, -, -, -, -, -, -, -, e0, e1, -⟩ := block_index t
  rw [View.read_apply]
  show A _ = A _
  congr 1
  funext a
  refine Fin.ext ?_
  match a with
  | ⟨0, _⟩ => show win0_7.index t 0 * 1 + 1 * p.val = p.val; rw [e0]; omega
  | ⟨1, _⟩ => show win0_7.index t 1 * 64 + 1 * q.val = q.val; rw [e1]; omega

theorem bias2Block_apply (c : Dev nD) (t : Fin cfg0.N) (p : Fin 1) (q : Fin 64) :
    (iblk m c 7 t : Vec Ideal S1x64 .f32) (ix2 p q) = bias2 m c (ix2 p q) :=
  bias2Read c (V m c (Pipeline.arrRef spec0 7)) t p q

end Cert.NodeMlp.Kernel

end
-- ==== Proof.KernelValue.lean ====
/-
  The kernel's result array is the perceptron of the feature matrix.

  At point `t` the block the body stores is the perceptron of rows `2000 t … 2000 t + 1999` of the feature matrix,
  which is block `t` of the whole result; and the 25 blocks cover the 50000 rows (row `r` lies in block `r / 2000`).
-/
import proofs.«177867_j50242527429374_1_alg».proof.Proof.KernelBlocks

noncomputable section

open scoped BigOperators

namespace Cert.NodeMlp.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What a point writes back, and the whole array -/

/-- The output row depends on its five operands only through their entries. -/
theorem rowOut_congr_all {u u' : Fin 208 → EReal} {W1 W1' : (⟨2, ![208, 256]⟩ : Shape).Idx → EReal}
    {b1 b1' : Fin 256 → EReal} {W2 W2' : (⟨2, ![256, 64]⟩ : Shape).Idx → EReal} {b2 b2' : Fin 64 → EReal}
    (hu : ∀ l, u l = u' l) (hW1 : ∀ l k, W1 (ix2 l k) = W1' (ix2 l k)) (hb1 : ∀ k, b1 k = b1' k)
    (hW2 : ∀ k j, W2 (ix2 k j) = W2' (ix2 k j)) (hb2 : ∀ j, b2 j = b2' j) (j : Fin 64) :
    rowOut u W1 b1 W2 b2 j = rowOut u' W1' b1' W2' b2' j := by
  unfold rowOut
  simp only [hu, hW1, hb1, hW2, hb2]

/-- Row `p` of the result window's block at point `t`, read off ANY contents `G` of the result array, is row
    `2000 t + p` of `G`. -/
theorem outRead (c : Dev nD) (G : Buf (Elt Ideal) ((c : Thread nD τ).loc (Pipeline.arrRef spec0 8)))
    (t : Fin cfg0.N) (p : Fin 2000) (j : Fin 64) (r : Fin 50000) (hr : r.val = 2000 * t.val + p.val) :
    (((cfg0.win 8).blk t).view.read (Elt Ideal) G : Vec Ideal S2000x64 .f32) (ix2 p j)
      = (G : (⟨2, ![50000, 64]⟩ : Shape).Idx → EReal) (ix2 r j) := by
  obtain ⟨-, -, -, -, -, -, -, -, -, -, -, -, -, -, -, -, e0, e1⟩ := block_index t
  rw [View.read_apply]
  show G _ = G _
  congr 1
  funext a
  refine Fin.ext ?_
  match a with
  | ⟨0, _⟩ => show win0_8.index t 0 * 2000 + 1 * p.val = r.val; rw [e0, hr]; omega
  | ⟨1, _⟩ => show win0_8.index t 1 * 64 + 1 * j.val = j.val; rw [e1]; omega

/-- No block of the result window overhangs the array: what is written back of ANY staged block is the block. -/
theorem writeBack_whole (t : Fin cfg0.N) (B : Vec Ideal S2000x64 .f32) (y : (⟨2, ![2000, 64]⟩ : Shape).Idx) :
    ((cfg0.win 8).cut (grid0.coords t) B : Vec Ideal S2000x64 .f32) y = B y := rfl

/-- The whole result at an entry. -/
theorem result_apply (c : Dev nD) (r : Fin 50000) (j : Fin 64) :
    result m c (ix2 r j) = rowOut (fun l => features (nodeRows m c) (denseA m c) (denseB m c) (edgeRows m c) (ix2 r l))
      (layer1 m c) (fun k => bias1 m c (ix2 0 k)) (layer2 m c) (fun q => bias2 m c (ix2 0 q)) j := rfl

/-- What point `t` writes back is block `t` of the whole result. -/
theorem flushed_eq (c : Dev nD) (t : Fin cfg0.N) :
    (dats m 0 c).flushed 8 t = ((cfg0.win 8).blk t).view.read (Elt Ideal) (result m c) := by
  rw [Cert.KernelIdeal.Value.flushed8]
  unfold out0_8
  rw [View.canon_unit_zero hz]
  simp only [View.ld_unit_zero (S := S2000x64) hz, View.ld_unit_zero (S := S2000x32) hz,
    View.ld_unit_zero (S := S2000x48) hz, View.ld_unit_zero (S := S208x256) hz, View.ld_unit_zero (S := S1x256) hz,
    View.ld_unit_zero (S := S256x64) hz, View.ld_unit_zero (S := S1x64) hz]
  funext y
  obtain ⟨p, j, rfl⟩ : ∃ (p : Fin 2000) (j : Fin 64), y = ix2 p j := ⟨y 0, y 1, eq_ix2 y⟩
  have ht := point_lt t
  have hr : 2000 * t.val + p.val < 50000 := by have := p.isLt; omega
  refine (writeBack_whole t (k0_pay1 (F := Ideal) (iblk m c 0 t) (iblk m c 2 t) (iblk m c 3 t) (iblk m c 1 t)
    (iblk m c 4 t) (iblk m c 5 t) (iblk m c 6 t) (iblk m c 7 t)) (ix2 p j)).trans ?_
  refine Eq.trans ?_ (outRead c (result m c) t p j (⟨2000 * t.val + p.val, hr⟩ : Fin 50000) rfl).symm
  refine (payload_apply (iblk m c 0 t) (iblk m c 2 t) (iblk m c 3 t) (iblk m c 1 t) (iblk m c 4 t) (iblk m c 5 t)
    (iblk m c 6 t) (iblk m c 7 t) p j).trans ?_
  refine Eq.trans ?_ (result_apply m c (⟨2000 * t.val + p.val, hr⟩ : Fin 50000) j).symm
  exact rowOut_congr_all
    (fun l => joined_block_row (nodeRows m c) (denseA m c) (denseB m c) (edgeRows m c) (iblk m c 0 t) (iblk m c 2 t)
      (iblk m c 3 t) (iblk m c 1 t) concatenates_S2000x64_S2000x64_S2000x32_S2000x48_S2000x208_d1 p
      (⟨2000 * t.val + p.val, hr⟩ : Fin 50000)
      (fun q => nodeBlock_apply m c t p q (⟨2000 * t.val + p.val, hr⟩ : Fin 50000) rfl)
      (fun q => denseABlock_apply m c t p q (⟨2000 * t.val + p.val, hr⟩ : Fin 50000) rfl)
      (fun q => denseBBlock_apply m c t p q (⟨2000 * t.val + p.val, hr⟩ : Fin 50000) rfl)
      (fun q => edgeBlock_apply m c t p q (⟨2000 * t.val + p.val, hr⟩ : Fin 50000) rfl) l)
    (fun l k => layer1Block_apply m c t l k) (fun k => bias1Block_apply m c t 0 k)
    (fun k q => layer2Block_apply m c t k q) (fun q => bias2Block_apply m c t 0 q) j

/-- The 25 blocks cover the array, so after the run it holds the whole result. -/
theorem final (c : Dev nD) : (dats m 0 c).arrAt 8 cfg0.N = result m c :=
  (dats m 0 c).arrAt_eq_of_cover 8 (result m c) (fun t _ => flushed_eq m c t) fun i => by
    have hi0 : (i 0 : Nat) < 50000 := (i 0).isLt
    have hi1 : (i 1 : Nat) < 64 := (i 1).isLt
    have hN25 : cfg0.N = 25 := N_0
    have hN : (i 0 : Nat) / 2000 < cfg0.N := by omega
    obtain ⟨-, -, -, -, -, -, -, -, -, -, -, -, -, -, -, -, e0, e1⟩ := block_index ⟨(i 0 : Nat) / 2000, hN⟩
    refine ⟨⟨(i 0 : Nat) / 2000, hN⟩, flush0_8 _, ?_⟩
    show i ∈ ((View.whole main_v21).slice (win0_8.rect ⟨(i 0 : Nat) / 2000, hN⟩)).set
    rw [View.set_slice_whole, Rect.mem_set_unit]
    intro a
    match a with
    | ⟨0, _⟩ =>
      show win0_8.index ⟨(i 0 : Nat) / 2000, hN⟩ 0 * 2000 ≤ (i 0 : Nat)
        ∧ (i 0 : Nat) < win0_8.index ⟨(i 0 : Nat) / 2000, hN⟩ 0 * 2000 + 2000
      rw [e0]
      show (i 0 : Nat) / 2000 * 2000 ≤ (i 0 : Nat) ∧ (i 0 : Nat) < (i 0 : Nat) / 2000 * 2000 + 2000
      omega
    | ⟨1, _⟩ =>
      show win0_8.index ⟨(i 0 : Nat) / 2000, hN⟩ 1 * 64 ≤ (i 1 : Nat)
        ∧ (i 1 : Nat) < win0_8.index ⟨(i 0 : Nat) / 2000, hN⟩ 1 * 64 + 64
      rw [e1]
      omega

/-- The kernel's run, read: the result array holds the perceptron of the feature matrix, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩)
    (Cert.KernelIdeal.Value.run_blocks m ρ)

end Cert.NodeMlp.Kernel

end
-- ==== Proof.RefIsMlp.lean ====
/-
  The reference computes the perceptron of the specification.

  Read one operation at a time, the reference's result at `(r, j)` is the second product's sum over the 256 hidden
  units plus the second bias; each hidden unit is the maximum with zero of the first product's sum over the 208
  features plus the first bias; and the first product reads row `r` of the joined feature matrix. The two biases
  are laid out as one-row matrices and then repeated down the rows, which reads the vector at the column.
-/
import proofs.«177867_j50242527429374_1_alg».proof.Proof.Gen.ReferenceIdeal.Read
import proofs.«177867_j50242527429374_1_alg».proof.Proof.MlpSpec

noncomputable section

open scoped BigOperators

namespace Cert.NodeMlp.Ref

open Cert.ReferenceIdeal Cert.ReferenceIdeal.Read Idealize.ShloMosaic Idealize.ShloMosaic.ValueIdx

/-- The feature matrix the reference joins: the gathered node rows, the two dense blocks, the gathered edge sums. -/
abbrev features (x0 : (⟨S100000x64, .f32⟩ : BufTy).Contents (Elt Ideal)) (x1 : (⟨S50000x64, .f32⟩ : BufTy).Contents (Elt Ideal))
    (x2 : (⟨S50000x32, .f32⟩ : BufTy).Contents (Elt Ideal)) (x3 : (⟨S2x1600000, .i32⟩ : BufTy).Contents (Elt Ideal))
    (x4 : (⟨S1600000x48, .f32⟩ : BufTy).Contents (Elt Ideal)) (x5 : (⟨S50000, .i32⟩ : BufTy).Contents (Elt Ideal)) :
    (⟨2, ![50000, 208]⟩ : Shape).Idx → EReal :=
  val_main_v19 (F := Ideal) x0 x1 x2 x3 x4 x5

/-- The reference's result is the perceptron of the joined features, index by index. -/
theorem result_eq (x0 : (⟨S100000x64, .f32⟩ : BufTy).Contents (Elt Ideal)) (x1 : (⟨S50000x64, .f32⟩ : BufTy).Contents (Elt Ideal))
    (x2 : (⟨S50000x32, .f32⟩ : BufTy).Contents (Elt Ideal)) (x3 : (⟨S2x1600000, .i32⟩ : BufTy).Contents (Elt Ideal))
    (x4 : (⟨S1600000x48, .f32⟩ : BufTy).Contents (Elt Ideal)) (x5 : (⟨S50000, .i32⟩ : BufTy).Contents (Elt Ideal))
    (x6 : (⟨S208x256, .f32⟩ : BufTy).Contents (Elt Ideal)) (x7 : (⟨S256, .f32⟩ : BufTy).Contents (Elt Ideal))
    (x8 : (⟨S256x64, .f32⟩ : BufTy).Contents (Elt Ideal)) (x9 : (⟨S64, .f32⟩ : BufTy).Contents (Elt Ideal)) :
    val_main_v28 (F := Ideal) x0 x1 x2 x3 x4 x5 x6 x7 x8 x9 = mlp (features x0 x1 x2 x3 x4 x5) x6 x7 x8 x9 := by
  funext i
  obtain ⟨r, j, rfl⟩ : ∃ (r : Fin 50000) (j : Fin 64), i = ix2 r j := ⟨i 0, i 1, eq_ix2 i⟩
  -- the operand indices of the two products and of the bias layouts, by coordinates
  have e25l : ∀ k : Fin 256, lidx_main_v25 (ix2 r j) k = ix2 r k := fun k =>
    funext fun a => Fin.ext (by match a with | ⟨0, _⟩ => rfl | ⟨1, _⟩ => rfl)
  have e25r : ∀ k : Fin 256, ridx_main_v25 (ix2 r j) k = ix2 k j := fun k =>
    funext fun a => Fin.ext (by match a with | ⟨0, _⟩ => rfl | ⟨1, _⟩ => rfl)
  have e20l : ∀ (k : Fin 256) (l : Fin 208), lidx_main_v20 (ix2 r k) l = ix2 r l := fun k l =>
    funext fun a => Fin.ext (by match a with | ⟨0, _⟩ => rfl | ⟨1, _⟩ => rfl)
  have e20r : ∀ (k : Fin 256) (l : Fin 208), ridx_main_v20 (ix2 r k) l = ix2 l k := fun k l =>
    funext fun a => Fin.ext (by match a with | ⟨0, _⟩ => rfl | ⟨1, _⟩ => rfl)
  have e21 : ∀ k : Fin 256, idx_main_v21 (idx_main_v22 (ix2 r k)) = ix1 k := fun k =>
    funext fun a => Fin.ext (by match a with | ⟨0, _⟩ => rfl)
  have e26 : idx_main_v26 (idx_main_v27 (ix2 r j)) = ix1 j :=
    funext fun a => Fin.ext (by match a with | ⟨0, _⟩ => rfl)
  rw [val_main_v28_apply, val_main_v25_apply, val_main_v27_apply, val_main_v26_apply, e26]
  unfold mlp rowOut
  refine congrArg (· + x9 (ix1 j)) (Finset.sum_congr rfl fun k _ => ?_)
  rw [e25l, e25r, val_main_v24_apply, val_main_v23_apply, val_main_v20_apply, val_main_v22_apply, val_main_v21_apply, e21,
    val_main_call0_v0_apply, val_main_call0_cst_apply]
  simp only [e20l, e20r, Ideal.addf_def, Ideal.maximumf_def, Ideal.ofBits_def, Ideal.ofBits_zero_f32]

end Cert.NodeMlp.Ref

end
-- ==== Proof.Bridge.lean ====
/-
  The two programs compute one function.

  Before the kernel region the host code scatters the edge features into per-node sums and gathers the node rows and
  the edge sums at the agents' (wrapped) node indices; the reference's code does the same with the same operations, so
  the arrays the region finds are the reference's own intermediate values. The biases reach the region reshaped to
  one-row matrices, whose entry `(0, k)` is the vector's entry `k`. With these the kernel's result, the perceptron of
  the feature matrix, is the reference's result term by term.
-/
import proofs.«177867_j50242527429374_1_alg».proof.Proof.KernelValue
import proofs.«177867_j50242527429374_1_alg».proof.Proof.RefIsMlp
import proofs.«177867_j50242527429374_1_alg».proof.Proof.Gen.ReferenceIdeal.Read
import Idealize.ShloMosaic.Lib.StableHlo.Run

noncomputable section

namespace Cert.NodeMlp.Bridge

open Cert.KernelIdeal Cert.KernelIdeal.Gen Idealize.ShloMosaic Idealize.ShloMosaic.TcCoe Idealize.SL.Sem
open Idealize.ShloMosaic.ValueIdx Idealize.ShloMosaic.StableHlo
open Cert.NodeMlp.Kernel

variable (m : (ℓ : Loc nD τ sig) → Buf (Elt Ideal) ℓ)

/-! ## The reference's result over the feature matrix -/

/-- The reference's result is the perceptron of the four matrices it joins. -/
theorem ref_result (x0 : (⟨Cert.ReferenceIdeal.S100000x64, .f32⟩ : BufTy).Contents (Elt Ideal))
    (x1 : (⟨Cert.ReferenceIdeal.S50000x64, .f32⟩ : BufTy).Contents (Elt Ideal))
    (x2 : (⟨Cert.ReferenceIdeal.S50000x32, .f32⟩ : BufTy).Contents (Elt Ideal))
    (x3 : (⟨Cert.ReferenceIdeal.S2x1600000, .i32⟩ : BufTy).Contents (Elt Ideal))
    (x4 : (⟨Cert.ReferenceIdeal.S1600000x48, .f32⟩ : BufTy).Contents (Elt Ideal))
    (x5 : (⟨Cert.ReferenceIdeal.S50000, .i32⟩ : BufTy).Contents (Elt Ideal))
    (x6 : (⟨Cert.ReferenceIdeal.S208x256, .f32⟩ : BufTy).Contents (Elt Ideal))
    (x7 : (⟨Cert.ReferenceIdeal.S256, .f32⟩ : BufTy).Contents (Elt Ideal))
    (x8 : (⟨Cert.ReferenceIdeal.S256x64, .f32⟩ : BufTy).Contents (Elt Ideal))
    (x9 : (⟨Cert.ReferenceIdeal.S64, .f32⟩ : BufTy).Contents (Elt Ideal)) :
    Cert.ReferenceIdeal.Read.val_main_v28 (F := Ideal) x0 x1 x2 x3 x4 x5 x6 x7 x8 x9
      = mlp (features (Cert.ReferenceIdeal.Read.val_main_v11 (F := Ideal) x0 x5) x1 x2
          (Cert.ReferenceIdeal.Read.val_main_v18 (F := Ideal) x3 x4 x5)) x6 x7 x8 x9 := by
  rw [Cert.NodeMlp.Ref.result_eq]
  unfold Cert.NodeMlp.Ref.features Cert.ReferenceIdeal.Read.val_main_v19
  rw [concatenate_eq_features]

/-! ## The arrays the region finds -/

/-- The node rows the region finds are the reference's gathered node rows. -/
theorem nodeRows_eq (c : Dev nD) :
    nodeRows m c = Cert.ReferenceIdeal.Read.val_main_v11 (F := Ideal) (m ((c : Thread nD τ).loc main_arg0))
      (m ((c : Thread nD τ).loc main_arg5)) := by
  show (V m c main_v11 : (⟨2, ![50000, 64]⟩ : Shape).Idx → EReal) = _
  dsimp only [V, hostOps0]
  after_results
  rfl

set_option maxHeartbeats 2000000 in
/-- The edge sums the region finds are the reference's gathered edge sums. -/
theorem edgeRows_eq (c : Dev nD) :
    edgeRows m c = Cert.ReferenceIdeal.Read.val_main_v18 (F := Ideal) (m ((c : Thread nD τ).loc main_arg3))
      (m ((c : Thread nD τ).loc main_arg4)) (m ((c : Thread nD τ).loc main_arg5)) := by
  show (V m c main_v18 : (⟨2, ![50000, 48]⟩ : Shape).Idx → EReal) = _
  dsimp only [V, hostOps0]
  after_results_simp
  rfl

theorem denseA_eq (c : Dev nD) : denseA m c = m ((c : Thread nD τ).loc main_arg1) := V_main_arg1 m c
theorem denseB_eq (c : Dev nD) : denseB m c = m ((c : Thread nD τ).loc main_arg2) := V_main_arg2 m c
theorem layer1_eq (c : Dev nD) : layer1 m c = m ((c : Thread nD τ).loc main_arg6) := V_main_arg6 m c
theorem layer2_eq (c : Dev nD) : layer2 m c = m ((c : Thread nD τ).loc main_arg8) := V_main_arg8 m c

/-- Entry `(0, k)` of the first bias's one-row matrix is the bias vector's entry `k`. -/
theorem bias1_fun (c : Dev nD) :
    (fun k : (⟨1, ![256]⟩ : Shape).Idx => bias1 m c (ix2 0 (k 0))) = m ((c : Thread nD τ).loc main_arg7) := by
  have e : (V m c main_v19 : (⟨2, ![1, 256]⟩ : Shape).Idx → EReal)
      = shapeCast S1x256 (m ((c : Thread nD τ).loc main_arg7)) shapeCasts_S256_S1x256 := by
    dsimp only [V, hostOps0]
    after_results
    rfl
  funext k
  show (V m c main_v19 : (⟨2, ![1, 256]⟩ : Shape).Idx → EReal) (ix2 0 (k 0)) = _
  rw [e]
  exact shapeCast_apply _ shapeCasts_S256_S1x256 (ix2 0 (k 0)) k (by
    rw [Shape.rowMajor_val_one, Shape.rowMajor_val_two]
    show (k 0).val = 0 * 256 + (k 0).val
    omega)

/-- Entry `(0, q)` of the second bias's one-row matrix is the bias vector's entry `q`. -/
theorem bias2_fun (c : Dev nD) :
    (fun q : (⟨1, ![64]⟩ : Shape).Idx => bias2 m c (ix2 0 (q 0))) = m ((c : Thread nD τ).loc main_arg9) := by
  have e : (V m c main_v20 : (⟨2, ![1, 64]⟩ : Shape).Idx → EReal)
      = shapeCast S1x64 (m ((c : Thread nD τ).loc main_arg9)) shapeCasts_S64_S1x64 := by
    dsimp only [V, hostOps0]
    after_results
    rfl
  funext q
  show (V m c main_v20 : (⟨2, ![1, 64]⟩ : Shape).Idx → EReal) (ix2 0 (q 0)) = _
  rw [e]
  exact shapeCast_apply _ shapeCasts_S64_S1x64 (ix2 0 (q 0)) q (by
    rw [Shape.rowMajor_val_one, Shape.rowMajor_val_two]
    show (q 0).val = 0 * 64 + (q 0).val
    omega)

/-- The kernel's result over the arguments: the perceptron of the reference's own feature matrix. -/
theorem kernel_result (c : Dev nD) :
    result m c = mlp (features
        (Cert.ReferenceIdeal.Read.val_main_v11 (F := Ideal) (m ((c : Thread nD τ).loc main_arg0)) (m ((c : Thread nD τ).loc main_arg5)))
        (m ((c : Thread nD τ).loc main_arg1)) (m ((c : Thread nD τ).loc main_arg2))
        (Cert.ReferenceIdeal.Read.val_main_v18 (F := Ideal) (m ((c : Thread nD τ).loc main_arg3)) (m ((c : Thread nD τ).loc main_arg4))
          (m ((c : Thread nD τ).loc main_arg5))))
      (m ((c : Thread nD τ).loc main_arg6)) (m ((c : Thread nD τ).loc main_arg7)) (m ((c : Thread nD τ).loc main_arg8))
      (m ((c : Thread nD τ).loc main_arg9)) := by
  unfold result
  rw [nodeRows_eq m c, edgeRows_eq m c, denseA_eq m c, denseB_eq m c, layer1_eq m c, layer2_eq m c, bias1_fun m c,
    bias2_fun m c]

end Cert.NodeMlp.Bridge

end
-- ==== Proof.lean ====
/-
  A node update of a message-passing network: edge features are summed into their source nodes, each agent's node
  row and node sum are gathered and joined with two dense per-agent blocks into 208 features, and a two-layer
  perceptron (208 → 256, maximum with zero, 256 → 64) is applied to every agent's row.

  The scatter and the two gathers are the same host operations in both programs. The kernel applies the perceptron
  to 25 blocks of 2000 agents, narrowing the operands of each product to a shorter float format, which over the
  extended reals changes nothing; the reference applies it to all 50000 rows in one piece. Both results are the one
  function `mlp` of the feature matrix: entry `(r, j)` is
      (∑ k, max (∑ l, feat (r, l) · W1 (l, k) + b1 k) 0 · W2 (k, j)) + b2 j,
  the sums over the same index sets on both sides, so no law of the extended reals beyond unfolding is needed and
  the finiteness of the inputs is never used.

  The modules: MlpSpec (the perceptron), LibJoinCols4 and Features (four matrices side by side), LibPlainDotSum (a
  matrix product at an entry), KernelRow (one grid point's arithmetic), KernelBlocks (which rows a block holds),
  KernelValue (the 25 blocks make the whole array), RefIsMlp (the reference read operation by operation), Bridge
  (the arrays the region finds are the reference's intermediate values).
-/
import proofs.«177867_j50242527429374_1_alg».proof.Defs
import proofs.«177867_j50242527429374_1_alg».proof.Proof.Gen.Kernel
import proofs.«177867_j50242527429374_1_alg».proof.Proof.Gen.Kernel.Skeleton
import proofs.«177867_j50242527429374_1_alg».proof.Proof.Gen.Kernel.Launch
import proofs.«177867_j50242527429374_1_alg».proof.Proof.Gen.Kernel.Points
import proofs.«177867_j50242527429374_1_alg».proof.Proof.Gen.Kernel.Frame
import proofs.«177867_j50242527429374_1_alg».proof.Proof.Gen.KernelIdeal
import proofs.«177867_j50242527429374_1_alg».proof.Proof.Gen.KernelIdeal.Skeleton
import proofs.«177867_j50242527429374_1_alg».proof.Proof.Gen.KernelIdeal.Launch
import proofs.«177867_j50242527429374_1_alg».proof.Proof.Gen.KernelIdeal.Points
import proofs.«177867_j50242527429374_1_alg».proof.Proof.Gen.KernelIdeal.Frame
import proofs.«177867_j50242527429374_1_alg».proof.Proof.Gen.ReferenceIdeal
import proofs.«177867_j50242527429374_1_alg».proof.Proof.Gen.Pre_finite_inputs
import proofs.«177867_j50242527429374_1_alg».proof.Proof.Gen.KernelIdeal.Value
import proofs.«177867_j50242527429374_1_alg».proof.Proof.Gen.ReferenceIdeal.Run
import proofs.«177867_j50242527429374_1_alg».proof.Proof.Gen.ReferenceIdeal.Read
import proofs.«177867_j50242527429374_1_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the perceptron of the feature matrix. -/
theorem algebraic : Cert.algebraic_KernelIdeal_ReferenceIdeal := by
  intro m ρ m' ρ' _ hagree
  refine ⟨fun c => Cert.NodeMlp.Kernel.result m c, Cert.NodeMlp.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v28_eq, Cert.NodeMlp.Bridge.ref_result, h0, h1, h2, h3, h4, h5, h6, h7, h8, h9]
  exact (Cert.NodeMlp.Bridge.kernel_result m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
